-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024 : Shape := ⟨1, ![1024]⟩
abbrev S100000x128 : Shape := ⟨2, ![100000, 128]⟩
abbrev S100000 : Shape := ⟨1, ![100000]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S1024x128 .f32) (main_arg1 : IVec S1024 32) (main_arg2 : FVec F S100000x128 .f32) (main_arg3 : FVec F S100000 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S1024x128 : Shape := ⟨2, ![1024, 128]⟩
abbrev S1024 : Shape := ⟨1, ![1024]⟩
abbrev S100000x128 : Shape := ⟨2, ![100000, 128]⟩
abbrev S100000 : Shape := ⟨1, ![100000]⟩
abbrev S100000x1 : Shape := ⟨2, ![100000, 1]⟩
abbrev S100000x1024 : Shape := ⟨2, ![100000, 1024]⟩
abbrev S4000x128 : Shape := ⟨2, ![4000, 128]⟩
abbrev S4000x1 : Shape := ⟨2, ![4000, 1]⟩
abbrev S4000x1024 : Shape := ⟨2, ![4000, 1024]⟩
abbrev S1024x100000 : Shape := ⟨2, ![1024, 100000]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S100000, .f32⟩
  | .hbm, ⟨4, _⟩ => ⟨S100000x1, .f32⟩
  | .hbm, ⟨5, _⟩ => ⟨S100000x1024, .f32⟩
  | .hbm, ⟨6, _⟩ => ⟨S1024x100000, .f32⟩
  | .local _ .vmem, ⟨0, _⟩ => ⟨S1024x128, .f32⟩
  | .local _ .vmem, ⟨1, _⟩ => ⟨S4000x128, .f32⟩
  | .local _ .vmem, ⟨2, _⟩ => ⟨S4000x128, .f32⟩
  | .local _ .vmem, ⟨3, _⟩ => ⟨S4000x1, .f32⟩
  | .local _ .vmem, ⟨4, _⟩ => ⟨S4000x1, .f32⟩
  | .local _ .vmem, ⟨5, _⟩ => ⟨S4000x1024, .f32⟩
  | .local _ .vmem, ⟨6, _⟩ => ⟨S4000x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  inb_S1024x128_S1024x128_0_0 : ∀ a, (![0, 0] : Fin 2 → Nat) a + S1024x128.size a ≤ S1024x128.size a
  h_S1024x128 : 0 < S1024x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x1024 : S4000x1.Broadcasts S4000x1024
  inb_S4000x1024_S4000x1024_0_0 : ∀ a, (![0, 0] : Fin 2 → Nat) a + S4000x1024.size a ≤ S4000x1024.size a
  h_S4000x1024 : 0 < S4000x1024.numel
  transposes_S100000x1024_S1024x100000_1_0 : S100000x1024.Transposes [1, 0] S1024x100000
  dot_S4000x128_S1024x128_S4000x1024_1_1_0_0_n_n_wf : DotDims.WF S4000x128 S1024x128 S4000x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1024.size a ≤ S100000x1024.size a
  hwx0_3 : ∀ i : grid0.Coords, EltTy.bits .f32 = 32 ∨ (Rect.block (s := S100000x1024) S4000x1024.size (cc0_transform_3 i) (hinb0_3 i)).WholeWords (EltTy.packing .f32)

variable [Facts₀]

def dot_S4000x128_S1024x128_S4000x1024_1_1_0_0_n_n : DotDims S4000x128 S1024x128 S4000x1024 where
  lhsContracting := [1]
  rhsContracting := [1]
  lhsNonContracting := [0]
  rhsNonContracting := [0]
  lhsBatch := []
  rhsBatch := []
  wf := dot_S4000x128_S1024x128_S4000x1024_1_1_0_0_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024 : Shape := ⟨1, ![1024]⟩
abbrev S100000x128 : Shape := ⟨2, ![100000, 128]⟩
abbrev S100000 : Shape := ⟨1, ![100000]⟩
abbrev S128x100000 : Shape := ⟨2, ![128, 100000]⟩
abbrev S1024x100000 : Shape := ⟨2, ![1024, 100000]⟩
abbrev S1x100000 : Shape := ⟨2, ![1, 100000]⟩

abbrev nBuf : Space → Nat
  | .hbm => 9
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S100000, .f32⟩
  | .hbm, ⟨4, _⟩ => ⟨S128x100000, .f32⟩
  | .hbm, ⟨5, _⟩ => ⟨S1024x100000, .f32⟩
  | .hbm, ⟨6, _⟩ => ⟨S1x100000, .f32⟩
  | .hbm, ⟨7, _⟩ => ⟨S1024x100000, .f32⟩
  | .hbm, ⟨8, _⟩ => ⟨S1024x100000, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  transposes_S100000x128_S128x100000_1_0 : S100000x128.Transposes [1, 0] S128x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  dot_S1024x128_S128x100000_S1024x100000_1_0_0_1_n_n_wf : DotDims.WF S1024x128 S128x100000 S1024x100000 [1] [0] [0] [1] [] []

variable [Facts₀]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf

class Facts : Prop extends Facts₀ where

variable [Facts]
-- ==== Proof.Logits.lean ====
/-
  The output projection of a language-model head, as one function of its three arrays.

  A batch of 1024 hidden vectors x(a, ·) of length 128 is scored against 100000 output rows W(r, ·) with a bias b(r):
      logit(a, r) = Σ_k x(a, k) · W(r, k) + b(r),        k = 0 … 127.
  The entries are extended reals, and the sum is a plain finite sum: addition and multiplication on the extended reals are
  commutative, so neither the order of the summands nor the order of the two factors of a term matters, and nothing here
  asks that an entry be finite.

  The same numbers can be laid out with the output row first: logitᵀ(r, a) = Σ_k W(r, k) · x(a, k) + b(r). That is the
  transposed table, with the factors of every term exchanged; `transposed_eq` says the two agree entry by entry.
-/
import Idealize.ShloMosaic.Lib.ValueIdx
import Idealize.ShloMosaic.PureOps.Ideal

noncomputable section

namespace Logits

open Idealize.ShloMosaic Idealize.ShloMosaic.ValueIdx

/-- The hidden vectors: 1024 rows of length 128. -/
abbrev Hidden : Shape := ⟨2, ![1024, 128]⟩
/-- The output rows: 100000 rows of length 128. -/
abbrev Rows : Shape := ⟨2, ![100000, 128]⟩
/-- The bias: one entry per output row. -/
abbrev Bias : Shape := ⟨1, ![100000]⟩
/-- The table of logits, example first. -/
abbrev Table : Shape := ⟨2, ![1024, 100000]⟩
/-- The table of logits, output row first. -/
abbrev TableT : Shape := ⟨2, ![100000, 1024]⟩

variable (x : Hidden.Idx → EReal) (W : Rows.Idx → EReal) (b : Bias.Idx → EReal)

/-- The logit of example `a` for output row `r`. -/
def logit (a : Fin 1024) (r : Fin 100000) : EReal :=
  (∑ k : Fin 128, x (ix2 a k) * W (ix2 r k)) + b (ix1 r)

/-- The same logit with the factors of each term exchanged: the row of W first. -/
def logitT (r : Fin 100000) (a : Fin 1024) : EReal :=
  (∑ k : Fin 128, W (ix2 r k) * x (ix2 a k)) + b (ix1 r)

/-- The two are one number: multiplication on the extended reals is commutative. -/
theorem logitT_eq (r : Fin 100000) (a : Fin 1024) : logitT x W b r a = logit x W b a r := by
  unfold logitT logit
  exact congrArg (· + b (ix1 r)) (Finset.sum_congr rfl fun k _ => mul_comm _ _)

/-- The table of logits, example first. -/
def table : Table.Idx → EReal := fun i => logit x W b ⟨(i 0).val, (i 0).isLt⟩ ⟨(i 1).val, (i 1).isLt⟩

/-- The table of logits, output row first. -/
def tableT : TableT.Idx → EReal := fun j => logitT x W b ⟨(j 0).val, (j 0).isLt⟩ ⟨(j 1).val, (j 1).isLt⟩

theorem table_apply (a : Fin 1024) (r : Fin 100000) : table x W b (ix2 a r) = logit x W b a r := rfl

theorem tableT_apply (r : Fin 100000) (a : Fin 1024) : tableT x W b (ix2 r a) = logitT x W b r a := rfl

/-- Entry (a, r) of the example-first table is entry (r, a) of the row-first one. -/
theorem transposed_eq (a : Fin 1024) (r : Fin 100000) : tableT x W b (ix2 r a) = table x W b (ix2 a r) := by
  rw [tableT_apply, table_apply, logitT_eq]

end Logits

end
-- ==== Proof.RefLogits.lean ====
/-
  The reference computes the table of logits.

  It transposes W to a 128 × 100000 matrix, multiplies the 1024 × 128 hidden vectors by it (one contracted axis: entry (a, r)
  is Σ_k x(a, k) · Wᵀ(k, r), and Wᵀ(k, r) = W(r, k)), stretches the bias b over the 1024 examples and adds. Entry (a, r) of its
  result is therefore Σ_k x(a, k) · W(r, k) + b(r): the logit of example a for output row r.
-/
import proofs.«103915_g51384988729771_cont_8to1_c_500_25_alg».proof.Proof.Gen.ReferenceIdeal.Read
import proofs.«103915_g51384988729771_cont_8to1_c_500_25_alg».proof.Proof.Logits

noncomputable section

namespace Cert.ReferenceIdeal.RefValue

open Cert.ReferenceIdeal Cert.ReferenceIdeal.Read Idealize.ShloMosaic Idealize.ShloMosaic.ValueIdx

/-- The left factor of term k of entry (a, r) is x(a, k). -/
theorem left_factor (a : Fin 1024) (r : Fin 100000) (k : Fin 128) : lidx_main_v1 (ix2 a r) k = ix2 a k :=
  funext fun d => Fin.ext (by match d with | ⟨0, _⟩ => rfl | ⟨1, _⟩ => rfl)

/-- The right factor of term k of entry (a, r), read through the transposition, is W(r, k). -/
theorem right_factor (a : Fin 1024) (r : Fin 100000) (k : Fin 128) :
    idx_main_v0 (ridx_main_v1 (ix2 a r) k) = ix2 r k :=
  funext fun d => Fin.ext (by match d with | ⟨0, _⟩ => rfl | ⟨1, _⟩ => rfl)

/-- The bias stretched over the examples, read at (a, r), is b(r). -/
theorem bias_entry (a : Fin 1024) (r : Fin 100000) : idx_main_v2 (idx_main_v3 (ix2 a r)) = ix1 r :=
  funext fun d => Fin.ext (by match d with | ⟨0, _⟩ => rfl)

/-- The reference's result, as a function of its three float arguments, is the table of logits. -/
theorem reference_eq (x0 : Logits.Hidden.Idx → EReal) (x2 : Logits.Rows.Idx → EReal) (x3 : Logits.Bias.Idx → EReal) :
    val_main_v4 (F := Ideal) x0 x2 x3 = Logits.table x0 x2 x3 := by
  funext i
  obtain ⟨a, r, rfl⟩ : ∃ (a : Fin 1024) (r : Fin 100000), i = ix2 a r := ⟨i 0, i 1, eq_ix2 i⟩
  rw [val_main_v4_apply, val_main_v1_apply, val_main_v3_apply, val_main_v2_apply, Logits.table_apply]
  simp only [val_main_v0_apply, left_factor, right_factor, bias_entry]
  rfl

end Cert.ReferenceIdeal.RefValue

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockProduct.lean ====
/-
  One grid step of the kernel, entry by entry.

  A step holds a block of 4000 output rows w(p, ·) of length 128, all 1024 hidden vectors x(a, ·) and the 4000 bias entries of
  the block as a column β(p, 0). It multiplies the block by the hidden vectors on the matrix unit, contracting the length-128
  axis of BOTH factors and accumulating into a zero block, so entry (p, a) of the product is Σ_k w(p, k) · x(a, k); then it
  stretches the bias column across the 1024 examples and adds. Entry (p, a) of what the step stores is therefore
      Σ_k w(p, k) · x(a, k) + β(p, 0).
  The zero accumulator contributes nothing, and the sum is a plain finite sum of extended reals.
-/
import proofs.«103915_g51384988729771_cont_8to1_c_500_25_alg».proof.Proof.Gen.KernelIdeal.Skeleton
import proofs.«103915_g51384988729771_cont_8to1_c_500_25_alg».proof.Proof.LibKeepdims
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## The matrix unit's product: which entries of the two factors meet in term k of entry (p, a) -/

/-- The row of the left factor is the row of the entry. -/
theorem lhs_row (j : S4000x1024.Idx) (q : dot_S4000x128_S1024x128_S4000x1024_1_1_0_0_n_n.contr.Idx) :
    (dot_S4000x128_S1024x128_S4000x1024_1_1_0_0_n_n.lhsIdx j q 0).val = (j 0).val := by
  unfold DotDims.lhsIdx
  rw [dif_neg (show ¬(0 : Fin S4000x128.rank) ∈ dot_S4000x128_S1024x128_S4000x1024_1_1_0_0_n_n.lhsBatch by decide),
    dif_pos (show (0 : Fin S4000x128.rank) ∈ dot_S4000x128_S1024x128_S4000x1024_1_1_0_0_n_n.lhsNonContracting by decide)]
  rfl

/-- The column of the left factor is the contracted coordinate. -/
theorem lhs_col (j : S4000x1024.Idx) (q : dot_S4000x128_S1024x128_S4000x1024_1_1_0_0_n_n.contr.Idx) :
    (dot_S4000x128_S1024x128_S4000x1024_1_1_0_0_n_n.lhsIdx j q 1).val = (q ⟨0, by decide⟩).val :=
  dot_S4000x128_S1024x128_S4000x1024_1_1_0_0_n_n.lhsIdx_val_of_single rfl j q

/-- The row of the right factor is the COLUMN of the entry: the right factor enters transposed. -/
theorem rhs_row (j : S4000x1024.Idx) (q : dot_S4000x128_S1024x128_S4000x1024_1_1_0_0_n_n.contr.Idx) :
    (dot_S4000x128_S1024x128_S4000x1024_1_1_0_0_n_n.rhsIdx j q 0).val = (j 1).val := by
  unfold DotDims.rhsIdx
  rw [dif_neg (show ¬(0 : Fin S1024x128.rank) ∈ dot_S4000x128_S1024x128_S4000x1024_1_1_0_0_n_n.rhsBatch by decide),
    dif_pos (show (0 : Fin S1024x128.rank) ∈ dot_S4000x128_S1024x128_S4000x1024_1_1_0_0_n_n.rhsNonContracting by decide)]
  rfl

/-- The column of the right factor is the contracted coordinate too. -/
theorem rhs_col (j : S4000x1024.Idx) (q : dot_S4000x128_S1024x128_S4000x1024_1_1_0_0_n_n.contr.Idx) :
    (dot_S4000x128_S1024x128_S4000x1024_1_1_0_0_n_n.rhsIdx j q 1).val = (q ⟨0, by decide⟩).val :=
  dot_S4000x128_S1024x128_S4000x1024_1_1_0_0_n_n.rhsIdx_val_of_single rfl j q

/-- Entry (p, a) of the block's product with the hidden vectors, accumulated into zero: Σ_k w(p, k) · x(a, k). -/
theorem product_entry (w : FVec Ideal S4000x128 .f32) (x : FVec Ideal S1024x128 .f32) (p : Fin 4000) (a : Fin 1024) :
    matmul dot_S4000x128_S1024x128_S4000x1024_1_1_0_0_n_n none w x (constant (F := Ideal) S4000x1024 .f32 0x00000000#32) (ix2 p a)
      = ∑ k : Fin 128, w (ix2 p k) * x (ix2 a k) := by
  show FloatOps.matmul dot_S4000x128_S1024x128_S4000x1024_1_1_0_0_n_n none w x (constant (F := Ideal) S4000x1024 .f32 0x00000000#32) (ix2 p a) = _
  rw [Ideal.matmul_constant_zero_apply,
    ← Equiv.sum_comp (ValueIdx.contrEquiv1 dot_S4000x128_S1024x128_S4000x1024_1_1_0_0_n_n 128 rfl rfl).symm]
  refine Finset.sum_congr rfl fun k _ => ?_
  have hk := ValueIdx.contrEquiv1_symm_val dot_S4000x128_S1024x128_S4000x1024_1_1_0_0_n_n 128 rfl rfl k
  have el : dot_S4000x128_S1024x128_S4000x1024_1_1_0_0_n_n.lhsIdx (ix2 p a)
      ((ValueIdx.contrEquiv1 dot_S4000x128_S1024x128_S4000x1024_1_1_0_0_n_n 128 rfl rfl).symm k) = ix2 p k :=
    funext fun d => Fin.ext (by
      match d with
      | ⟨0, _⟩ => exact lhs_row _ _
      | ⟨1, _⟩ => exact (lhs_col _ _).trans hk)
  have er : dot_S4000x128_S1024x128_S4000x1024_1_1_0_0_n_n.rhsIdx (ix2 p a)
      ((ValueIdx.contrEquiv1 dot_S4000x128_S1024x128_S4000x1024_1_1_0_0_n_n 128 rfl rfl).symm k) = ix2 a k :=
    funext fun d => Fin.ext (by
      match d with
      | ⟨0, _⟩ => exact rhs_row _ _
      | ⟨1, _⟩ => exact (rhs_col _ _).trans hk)
  rw [el, er]

/-! ## The bias column stretched across the examples -/

/-- The bias column, recast to its own shape and stretched to 4000 × 1024, read at (p, a), is β(p, 0). -/
theorem bias_entry (β : FVec Ideal S4000x1 .f32) (p : Fin 4000) (a : Fin 1024) :
    broadcastTo S4000x1024 (shapeCast S4000x1 β shapeCasts_S4000x1_S4000x1) broadcasts_S4000x1_S4000x1024 (ix2 p a)
      = β (ix2 p 0) := by
  rw [shapeCast_self]
  exact broadcastTo_a1_ab_apply β broadcasts_S4000x1_S4000x1024 p a

/-! ## What the step stores -/

/-- Entry (p, a) of the value a step stores: Σ_k w(p, k) · x(a, k) + β(p, 0). -/
theorem stored_entry (w : Vec Ideal S4000x128 .f32) (x : Vec Ideal S1024x128 .f32) (β : Vec Ideal S4000x1 .f32)
    (p : Fin 4000) (a : Fin 1024) :
    k0_pay1 (F := Ideal) w x β (ix2 p a) = (∑ k : Fin 128, w (ix2 p k) * x (ix2 a k)) + β (ix2 p 0) := by
  unfold k0_pay1
  show matmul (φ₁ := .f32) (φ₂ := .f32) dot_S4000x128_S1024x128_S4000x1024_1_1_0_0_n_n none w x (constant (F := Ideal) S4000x1024 .f32 0x00000000#32) (ix2 p a)
      + broadcastTo S4000x1024 (shapeCast S4000x1 β shapeCasts_S4000x1_S4000x1) broadcasts_S4000x1_S4000x1024 (ix2 p a) = _
  rw [product_entry, bias_entry]

end Cert.KernelIdeal.Block

end
-- ==== Proof.StepTable.lean ====
/-
  A grid step writes a block of the row-first table of logits.

  Step n of the 25 holds output rows n·4000 … n·4000 + 3999 of W, the matching 4000 entries of the bias column, and all the
  hidden vectors. Entry (p, a) of what it stores is Σ_k W(n·4000 + p, k) · x(a, k) + b(n·4000 + p): the row-first logit of
  output row n·4000 + p for example a.
-/
import proofs.«103915_g51384988729771_cont_8to1_c_500_25_alg».proof.Proof.BlockProduct
import proofs.«103915_g51384988729771_cont_8to1_c_500_25_alg».proof.Proof.Logits

noncomputable section

namespace Cert.KernelIdeal.Block

open Cert.KernelIdeal Cert.KernelIdeal.Gen Idealize.ShloMosaic Idealize.ShloMosaic.ValueIdx

/-- The value step `n` stores, at (p, a), is the row-first logit of output row n·4000 + p for example a, when the step's three
    blocks are the hidden vectors, rows n·4000 … of W and rows n·4000 … of the bias column `col`, and `col` is b as a column. -/
theorem step_entry (x : Logits.Hidden.Idx → EReal) (W : Logits.Rows.Idx → EReal) (b : Logits.Bias.Idx → EReal)
    (col : S100000x1.Idx → EReal) (hcol : ∀ r : Fin 100000, col (ix2 r (0 : Fin 1)) = b (ix1 r))
    (n : Nat) (hn : n < 25)
    (xs : Vec Ideal S1024x128 .f32) (ws : Vec Ideal S4000x128 .f32) (βs : Vec Ideal S4000x1 .f32)
    (hx : ∀ (a : Fin 1024) (k : Fin 128), xs (ix2 a k) = x (ix2 a k))
    (hw : ∀ (p : Fin 4000) (k : Fin 128), ws (ix2 p k) = W (ix2 ⟨n * 4000 + p.val, by have := p.isLt; omega⟩ k))
    (hβ : ∀ p : Fin 4000, βs (ix2 p (0 : Fin 1)) = col (ix2 ⟨n * 4000 + p.val, by have := p.isLt; omega⟩ (0 : Fin 1)))
    (p : Fin 4000) (a : Fin 1024) :
    k0_pay1 (F := Ideal) ws xs βs (ix2 p a)
      = Logits.tableT x W b (ix2 ⟨n * 4000 + p.val, by have := p.isLt; omega⟩ a) := by
  rw [stored_entry, Logits.tableT_apply]
  unfold Logits.logitT
  rw [hβ, hcol]
  exact congrArg (· + b (ix1 _)) (Finset.sum_congr rfl fun k _ => by rw [hw, hx])

end Cert.KernelIdeal.Block

end
-- ==== Proof.Region.lean ====
/-
  The array the kernel's grid leaves: the row-first table of logits.

  The 25 grid steps write blocks of 4000 rows of a 100000 × 1024 array. Step t reads all the hidden vectors (block (0, 0) of
  x), rows t·4000 … t·4000 + 3999 of W and the same rows of the bias, which the host has recast from a vector of 100000 entries
  to a column of shape 100000 × 1, entry (r, 0) being b(r). By the arithmetic of one step, what step t writes back is rows
  t·4000 … t·4000 + 3999 of the row-first table. Row r lies in the block of step r / 4000, so the 25 blocks cover the array,
  and after the last step the array IS the row-first table.
-/
import proofs.«103915_g51384988729771_cont_8to1_c_500_25_alg».proof.Proof.Gen.KernelIdeal.Frame
import proofs.«103915_g51384988729771_cont_8to1_c_500_25_alg».proof.Proof.StepTable
import proofs.«103915_g51384988729771_cont_8to1_c_500_25_alg».proof.Proof.LibKeepdims
import Idealize.ShloMosaic.Lib.Pipeline.Value
import Idealize.ShloMosaic.Lib.StableHlo.Run

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-! ## The bias as the region finds it: a column -/

/-- The host's recast of the bias vector to a column is what the region finds in the column's buffer. -/
theorem column_eq (c : Dev nD) :
    (V m c main_v0 : S100000x1.Idx → EReal)
      = shapeCast S100000x1 (m ((c : Thread nD τ).loc main_arg3)) shapeCasts_S100000_S100000x1 := by
  show StableHlo.after hostOps0 (fun b => m (c, b)) (Proc.devRef .tc main_v0) = _
  after_results
  rfl

/-- Entry (r, 0) of that column is b(r). -/
theorem column_entry (c : Dev nD) (r : Fin 100000) :
    (V m c main_v0 : S100000x1.Idx → EReal) (ix2 r (0 : Fin 1)) = m ((c : Thread nD τ).loc main_arg3) (ix1 r) := by
  rw [column_eq]
  exact shapeCast_a_a1_apply _ shapeCasts_S100000_S100000x1 r 0

/-! ## Which block each window holds at step t -/

/-- The hidden vectors' window stays on block (0, 0); the windows of W, of the bias column and of the output are all on block
    (t, 0) at step t. Decided over the 25 steps. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem steps : cfg0.N = 25 := N_0

/-- At every step the hidden vectors' block is the whole array x. -/
theorem hidden_block (c : Dev nD) (t : Fin cfg0.N) (a : Fin 1024) (k : Fin 128) :
    (iblk m c 0 t : S1024x128.Idx → EReal) (ix2 a k) = m ((c : Thread nD τ).loc main_arg0) (ix2 a k) := by
  obtain ⟨e0, e1, -⟩ := block_indices t
  show V m c main_arg0 (((cfg0.win 0).blk t).view.emb (ix2 a k)) = _
  rw [V_main_arg0]
  refine congrArg (m ((c : Thread nD τ).loc main_arg0)) (funext fun d => Fin.ext ?_)
  match d with
  | ⟨0, _⟩ => show win0_0.index t (0 : Fin 2) * 1024 + 1 * a.val = a.val; omega
  | ⟨1, _⟩ => show win0_0.index t (1 : Fin 2) * 128 + 1 * k.val = k.val; omega

/-- At step t the block of W is its rows t·4000 … t·4000 + 3999. -/
theorem rows_block (c : Dev nD) (t : Fin cfg0.N) (p : Fin 4000) (k : Fin 128) :
    (iblk m c 1 t : S4000x128.Idx → EReal) (ix2 p k)
      = m ((c : Thread nD τ).loc main_arg2) (ix2 ⟨t.val * 4000 + p.val, by have := p.isLt; have := t.isLt; have := steps; omega⟩ k) := by
  obtain ⟨-, -, e0, e1, -⟩ := block_indices t
  show V m c main_arg2 (((cfg0.win 1).blk t).view.emb (ix2 p k)) = _
  rw [V_main_arg2]
  refine congrArg (m ((c : Thread nD τ).loc main_arg2)) (funext fun d => Fin.ext ?_)
  match d with
  | ⟨0, _⟩ => show win0_1.index t (0 : Fin 2) * 4000 + 1 * p.val = t.val * 4000 + p.val; omega
  | ⟨1, _⟩ => show win0_1.index t (1 : Fin 2) * 128 + 1 * k.val = k.val; omega

/-- At step t the block of the bias column is its rows t·4000 … t·4000 + 3999. -/
theorem bias_block (c : Dev nD) (t : Fin cfg0.N) (p : Fin 4000) :
    (iblk m c 2 t : S4000x1.Idx → EReal) (ix2 p (0 : Fin 1))
      = (V m c main_v0 : S100000x1.Idx → EReal) (ix2 ⟨t.val * 4000 + p.val, by have := p.isLt; have := t.isLt; have := steps; omega⟩ (0 : Fin 1)) := by
  obtain ⟨-, -, -, -, e0, e1, -⟩ := block_indices t
  show V m c main_v0 (((cfg0.win 2).blk t).view.emb (ix2 p (0 : Fin 1))) = _
  refine congrArg (V m c main_v0) (funext fun d => Fin.ext ?_)
  match d with
  | ⟨0, _⟩ => show win0_2.index t (0 : Fin 2) * 4000 + 1 * p.val = t.val * 4000 + p.val; omega
  | ⟨1, _⟩ => show win0_2.index t (1 : Fin 2) * 1 + 1 * (0 : Nat) = 0; omega

/-! ## What a step writes back -/

/-- WHAT STEP t WRITES BACK is rows t·4000 … t·4000 + 3999 of the row-first table of the three argument arrays. -/
theorem flushed_eq (c : Dev nD) (t : Fin cfg0.N) :
    (dats m 0 c).flushed 3 t = ((cfg0.win 3).blk t).view.read (Elt Ideal)
      (Logits.tableT (m ((c : Thread nD τ).loc main_arg0)) (m ((c : Thread nD τ).loc main_arg2)) (m ((c : Thread nD τ).loc main_arg3))) := by
  show (cfg0.win 3).cut (grid0.coords t) ((dats m 0 c).after 3 t) = _
  rw [after0_3]
  unfold out0_3
  rw [View.canon_unit_zero origin]
  simp only [View.ld_unit_zero (S := S4000x128) origin, View.ld_unit_zero (S := S1024x128) origin, View.ld_unit_zero (S := S4000x1) origin]
  obtain ⟨-, -, -, -, -, -, e0, e1⟩ := block_indices t
  funext y
  obtain ⟨p, a, rfl⟩ : ∃ (p : Fin 4000) (a : Fin 1024), y = ix2 p a := ⟨y 0, y 1, eq_ix2 y⟩
  show k0_pay1 (F := Ideal) (iblk m c 1 t) (iblk m c 0 t) (iblk m c 2 t) (ix2 p a)
    = Logits.tableT (m ((c : Thread nD τ).loc main_arg0)) (m ((c : Thread nD τ).loc main_arg2)) (m ((c : Thread nD τ).loc main_arg3))
        (((cfg0.win 3).blk t).view.emb (ix2 p a))
  refine (Block.step_entry (m ((c : Thread nD τ).loc main_arg0)) (m ((c : Thread nD τ).loc main_arg2)) (m ((c : Thread nD τ).loc main_arg3))
    (V m c main_v0) (column_entry m c) t.val (Nat.lt_of_lt_of_eq t.isLt steps) (iblk m c 0 t) (iblk m c 1 t) (iblk m c 2 t)
    (hidden_block m c t) (rows_block m c t) (bias_block m c t) p a).trans ?_
  refine congrArg (Logits.tableT (m ((c : Thread nD τ).loc main_arg0)) (m ((c : Thread nD τ).loc main_arg2)) (m ((c : Thread nD τ).loc main_arg3)))
    (funext fun d => Fin.ext ?_)
  match d with
  | ⟨0, _⟩ => show t.val * 4000 + p.val = win0_3.index t (0 : Fin 2) * 4000 + 1 * p.val; omega
  | ⟨1, _⟩ => show a.val = win0_3.index t (1 : Fin 2) * 1024 + 1 * a.val; omega

/-! ## The 25 blocks cover the array -/

/-- An index of the array is in step t's block iff each coordinate is in the block's range on its axis. -/
theorem mem_block (t : Fin cfg0.N) (i : S100000x1024.Idx) :
    i ∈ ((cfg0.win 3).blk t).view.set ↔ ∀ a : Fin 2, win0_3.index t a * S4000x1024.size a ≤ (i a).val
      ∧ (i a).val < win0_3.index t a * S4000x1024.size a + S4000x1024.size a := by
  show i ∈ ((View.whole main_v1).slice (win0_3.rect t)).set ↔ _
  rw [View.set_slice_whole, Rect.mem_set_unit]
  exact Iff.rfl

/-- Row r of the array is written by step r / 4000. -/
theorem covered (i : S100000x1024.Idx) :
    ∃ t : Fin cfg0.N, (cfg0.win 3).flush t = true ∧ i ∈ ((cfg0.win 3).blk t).view.set := by
  have hi0 : (i 0).val < 100000 := (i 0).isLt
  have hi1 : (i 1).val < 1024 := (i 1).isLt
  have ht : (i 0).val / 4000 < cfg0.N := Nat.lt_of_lt_of_eq (by omega : (i 0).val / 4000 < 25) steps.symm
  obtain ⟨-, -, -, -, -, -, e0, e1⟩ := block_indices ⟨(i 0).val / 4000, ht⟩
  refine ⟨⟨(i 0).val / 4000, ht⟩, flush0_3 _, ?_⟩
  rw [mem_block]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_3.index ⟨(i 0).val / 4000, ht⟩ (1 : Fin 2) * 1024 ≤ (i 1).val
      ∧ (i 1).val < win0_3.index ⟨(i 0).val / 4000, ht⟩ (1 : Fin 2) * 1024 + 1024
    rw [e1]; omega

/-! ## The array after the last step -/

/-- THE ARRAY after the 25 steps is the row-first table of logits of the three argument arrays. -/
theorem final (c : Dev nD) :
    (dats m 0 c).arrAt 3 cfg0.N
      = Logits.tableT (m ((c : Thread nD τ).loc main_arg0)) (m ((c : Thread nD τ).loc main_arg2)) (m ((c : Thread nD τ).loc main_arg3)) :=
  (dats m 0 c).arrAt_eq_of_cover 3 _ (fun t _ => flushed_eq m c t) covered

end Cert.KernelIdeal.Region

end
-- ==== Proof.KernelRun.lean ====
/-
  The kernel's result: the table of logits.

  After the 25 grid steps the region's array is the row-first table, entry (r, a) = Σ_k W(r, k) · x(a, k) + b(r). The host then
  transposes it: entry (a, r) of the result is entry (r, a) of that array, which is the logit of example a for output row r, the
  two factors of each term exchanged. The label array is no operand of the region and no host line writes it, so it ends as it
  began, and so do the three float arguments.
-/
import proofs.«103915_g51384988729771_cont_8to1_c_500_25_alg».proof.Proof.Region

set_option maxRecDepth 16384

noncomputable section

namespace Cert.KernelIdeal.RunValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- What the host line after the region leaves in the result buffer: the transposed region array, which is the example-first
    table of logits of the three argument arrays. -/
theorem result_eq (c : Dev nD) :
    Pipeline.afterTail₀ cfgs (dats m) 0 (V0 m) [hostOps1] c main_v2
      = Logits.table (m ((c : Thread nD τ).loc main_arg0)) (m ((c : Thread nD τ).loc main_arg2)) (m ((c : Thread nD τ).loc main_arg3)) := by
  unfold Pipeline.afterTail₀
  show StableHlo.after hostOps1 _ (Proc.devRef .tc main_v2) = _
  after_results
  have hregion : Pipeline.withArrays (cfgs 0).spec c (V0 m c) (fun w => (dats m 0 c).arrAt w (cfgs 0).N) (Proc.devRef .tc main_v1)
      = Logits.tableT (m ((c : Thread nD τ).loc main_arg0)) (m ((c : Thread nD τ).loc main_arg2)) (m ((c : Thread nD τ).loc main_arg3)) :=
    (Pipeline.withArrays_arr spec0 launch0.win.arr_inj c _ _ 3).trans (Region.final m c)
  rw [hregion]
  funext i
  obtain ⟨a, r, rfl⟩ : ∃ (a : Fin 1024) (r : Fin 100000), i = ix2 a r := ⟨i 0, i 1, eq_ix2 i⟩
  exact (transpose_apply [1, 0] _ transposes_S100000x1024_S1024x100000_1_0 (ix2 a r) (ix2 r a) (fun d => match d with
    | ⟨0, _⟩ => rfl
    | ⟨1, _⟩ => rfl)).trans (Logits.transposed_eq _ _ _ a r)

/-- Every weakly fair execution of the kernel program terminates with the result buffer at the table of logits of the
    argument arrays, the labels as they were, and the four arguments unchanged. -/
theorem run : θ_run defs (onTc (τ := τ) (main (F := Ideal))) ⟨m, fun _ => 0, ρ⟩ fun r => ∀ c : Dev nD,
      r.2.mem ((c.tc : Thread nD τ).loc main_v2)
        = Logits.table (m ((c.tc : Thread nD τ).loc main_arg0)) (m ((c.tc : Thread nD τ).loc main_arg2)) (m ((c.tc : Thread nD τ).loc main_arg3))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (result_eq m c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.RunValue

end
-- ==== Proof.lean ====
/-
  The output projection of a language-model head, computed two ways, is one table of extended reals.

  The reference multiplies the 1024 × 128 hidden vectors x by the transposed 100000 × 128 matrix W and adds the bias b along the
  rows: entry (a, r) of its result is Σ_k x(a, k) · W(r, k) + b(r). The kernel works row-first: 25 grid steps each multiply 4000
  rows of W by all the hidden vectors (contracting the length-128 axis of both) and add those rows' bias as a column, filling a
  100000 × 1024 array whose entry (r, a) is Σ_k W(r, k) · x(a, k) + b(r); the host then transposes that array. Entry (a, r) of the
  kernel's result is entry (r, a) of the array, and the two sums differ only in the order of the two factors of each term:
  multiplication of extended reals is commutative, so the tables agree entry by entry, with no use of finiteness. The integer
  labels pass through both programs untouched.

  The idealization rewrote nothing in the kernel, so that it preserves the kernel is the empty statement.
-/
import proofs.«103915_g51384988729771_cont_8to1_c_500_25_alg».proof.Defs
import proofs.«103915_g51384988729771_cont_8to1_c_500_25_alg».proof.Proof.Gen.Kernel
import proofs.«103915_g51384988729771_cont_8to1_c_500_25_alg».proof.Proof.Gen.Kernel.Skeleton
import proofs.«103915_g51384988729771_cont_8to1_c_500_25_alg».proof.Proof.Gen.Kernel.Launch
import proofs.«103915_g51384988729771_cont_8to1_c_500_25_alg».proof.Proof.Gen.Kernel.Points
import proofs.«103915_g51384988729771_cont_8to1_c_500_25_alg».proof.Proof.Gen.Kernel.Frame
import proofs.«103915_g51384988729771_cont_8to1_c_500_25_alg».proof.Proof.Gen.KernelIdeal
import proofs.«103915_g51384988729771_cont_8to1_c_500_25_alg».proof.Proof.Gen.KernelIdeal.Skeleton
import proofs.«103915_g51384988729771_cont_8to1_c_500_25_alg».proof.Proof.Gen.KernelIdeal.Launch
import proofs.«103915_g51384988729771_cont_8to1_c_500_25_alg».proof.Proof.Gen.KernelIdeal.Points
import proofs.«103915_g51384988729771_cont_8to1_c_500_25_alg».proof.Proof.Gen.KernelIdeal.Frame
import proofs.«103915_g51384988729771_cont_8to1_c_500_25_alg».proof.Proof.Gen.ReferenceIdeal
import proofs.«103915_g51384988729771_cont_8to1_c_500_25_alg».proof.Proof.Gen.Pre_finite_inputs
import proofs.«103915_g51384988729771_cont_8to1_c_500_25_alg».proof.Proof.Gen.ReferenceIdeal.Run
import proofs.«103915_g51384988729771_cont_8to1_c_500_25_alg».proof.Proof.Gen.ReferenceIdeal.Read
import proofs.«103915_g51384988729771_cont_8to1_c_500_25_alg».proof.Proof.RefLogits
import proofs.«103915_g51384988729771_cont_8to1_c_500_25_alg».proof.Proof.KernelRun
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the four arguments, both programs end with the table of logits of those arguments in their
    first result and the labels in their second: the kernel by its run, the reference by its run read as the same table. -/
theorem algebraic : Cert.algebraic_KernelIdeal_ReferenceIdeal := by
  intro m ρ m' ρ' _ hagree
  refine ⟨fun c => Logits.table
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => m ((c.tc : Thread Cert.KernelIdeal.nD Cert.KernelIdeal.τ).loc Cert.KernelIdeal.main_arg1),
    Cert.KernelIdeal.RunValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v4_eq, Cert.ReferenceIdeal.RefValue.reference_eq,
      (hagree c).1, (hagree c).2.2.1, (hagree c).2.2.2]
  · rw [(h c).2.1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
